-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x128x128 : Shape := ⟨4, ![8, 64, 128, 128]⟩
abbrev S_ : Shape := ⟨0, ![]⟩

class Facts : Prop where
  bcast_S_S8x64x128x128 : S_.BroadcastsInDim S8x64x128x128 (![] : Fin 0 → Fin S8x64x128x128.rank)
  reducesTo_S8x64x128x128_S_d0_1_2_3 : S8x64x128x128.ReducesTo [0, 1, 2, 3] S_
  h_S_ : 0 < S_.numel

variable [Facts]

def fn {F : FTy → Type} [FloatOps F] (main_arg0 : FVec F S8x64x128x128 .f32) : IVec S_ 1 :=
  let main_v0 : FVec F S8x64x128x128 .f32 := Host.absf main_arg0
  let main_cst : FVec F S_ .f32 := constant S_ .f32 0x7F800000#32
  let main_v1 : FVec F S8x64x128x128 .f32 := broadcastInDim S8x64x128x128 ![] bcast_S_S8x64x128x128 main_cst
  let main_v2 : IVec S8x64x128x128 1 := cmpf .olt main_v0 main_v1
  let main_c : IVec S_ 1 := constantI S_ 1 1#1
  let main_v3 : IVec S_ 1 := (fun x v => Host.reduce IntOp.andi x v reducesTo_S8x64x128x128_S_d0_1_2_3 h_S_) main_v2 main_c
  main_v3
-- ==== Kernel.lean ====
abbrev S8x64x128x128 : Shape := ⟨4, ![8, 64, 128, 128]⟩
abbrev S8x128x128x128 : Shape := ⟨4, ![8, 128, 128, 128]⟩
abbrev S1x64x32x128 : Shape := ⟨4, ![1, 64, 32, 128]⟩
abbrev S1x128x32x128 : Shape := ⟨4, ![1, 128, 32, 128]⟩
abbrev S64x32x128 : Shape := ⟨3, ![64, 32, 128]⟩
abbrev S62x32x128 : Shape := ⟨3, ![62, 32, 128]⟩
abbrev S2x32x128 : Shape := ⟨3, ![2, 32, 128]⟩
abbrev S63x32x128 : Shape := ⟨3, ![63, 32, 128]⟩
abbrev S1x32x128 : Shape := ⟨3, ![1, 32, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x64x128x128, .f32⟩
  | .hbm, ⟨1, _⟩ => ⟨S8x128x128x128, .f32⟩
  | .local _ .vmem, ⟨0, _⟩ => ⟨S1x64x32x128, .f32⟩
  | .local _ .vmem, ⟨1, _⟩ => ⟨S1x64x32x128, .f32⟩
  | .local _ .vmem, ⟨2, _⟩ => ⟨S1x128x32x128, .f32⟩
  | .local _ .vmem, ⟨3, _⟩ => ⟨S1x128x32x128, .f32⟩
  | _, _ => ⟨S8x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x64x32x128_S1x64x32x128_0_0_0_0 : ∀ a, (![0, 0, 0, 0] : Fin 4 → Nat) a + S1x64x32x128.size a ≤ S1x64x32x128.size a
  h_S1x64x32x128 : 0 < S1x64x32x128.numel
  shapeCasts_S1x64x32x128_S64x32x128 : S1x64x32x128.ShapeCasts S64x32x128
  slices_S64x32x128_o2_0_0_S62x32x128 : S64x32x128.Slices ![2, 0, 0] S62x32x128
  slices_S64x32x128_o0_0_0_S2x32x128 : S64x32x128.Slices ![0, 0, 0] S2x32x128
  concatenates_S62x32x128_S2x32x128_S64x32x128_d0 : Shape.Concatenates [S62x32x128, S2x32x128] S64x32x128 0
  slices_S64x32x128_o1_0_0_S63x32x128 : S64x32x128.Slices ![1, 0, 0] S63x32x128
  slices_S64x32x128_o0_0_0_S1x32x128 : S64x32x128.Slices ![0, 0, 0] S1x32x128
  concatenates_S63x32x128_S1x32x128_S64x32x128_d0 : Shape.Concatenates [S63x32x128, S1x32x128] S64x32x128 0
  slices_S64x32x128_o63_0_0_S1x32x128 : S64x32x128.Slices ![63, 0, 0] S1x32x128
  slices_S64x32x128_o0_0_0_S63x32x128 : S64x32x128.Slices ![0, 0, 0] S63x32x128
  concatenates_S1x32x128_S63x32x128_S64x32x128_d0 : Shape.Concatenates [S1x32x128, S63x32x128] S64x32x128 0
  inb_S1x128x32x128_S1x64x32x128_0_0_0_0 : ∀ a, (![0, 0, 0, 0] : Fin 4 → Nat) a + S1x64x32x128.size a ≤ S1x128x32x128.size a
  shapeCasts_S64x32x128_S1x64x32x128 : S64x32x128.ShapeCasts S1x64x32x128
  inb_S1x128x32x128_S1x64x32x128_0_64_0_0 : ∀ a, (![0, 64, 0, 0] : Fin 4 → Nat) a + S1x64x32x128.size a ≤ S1x128x32x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32x128.size a ≤ S8x64x128x128.size a
  hwx0_0 : ∀ i : grid0.Coords, EltTy.bits .f32 = 32 ∨ (Rect.block (s := S8x64x128x128) S1x64x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x32x128.size a ≤ S8x128x128x128.size a
  hwx0_1 : ∀ i : grid0.Coords, EltTy.bits .f32 = 32 ∨ (Rect.block (s := S8x128x128x128) S1x128x32x128.size (cc0_transform_1 i) (hinb0_1 i)).WholeWords (EltTy.packing .f32)

variable [Facts₀]

abbrev win0_0 : Pipeline.Window sig grid0 :=
  Pipeline.Window.ofSpec (Memref.whole main_arg0) S1x64x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x32x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x128x128 : Shape := ⟨4, ![8, 64, 128, 128]⟩
abbrev S4 : Shape := ⟨1, ![4]⟩
abbrev S8x62x128x128 : Shape := ⟨4, ![8, 62, 128, 128]⟩
abbrev S8x2x128x128 : Shape := ⟨4, ![8, 2, 128, 128]⟩
abbrev S8x63x128x128 : Shape := ⟨4, ![8, 63, 128, 128]⟩
abbrev S8x1x128x128 : Shape := ⟨4, ![8, 1, 128, 128]⟩
abbrev S8x0x128x128 : Shape := ⟨4, ![8, 0, 128, 128]⟩
abbrev S1 : Shape := ⟨1, ![1]⟩
abbrev S_ : Shape := ⟨0, ![]⟩
abbrev S8x128x128x128 : Shape := ⟨4, ![8, 128, 128, 128]⟩

abbrev nBuf : Space → Nat
  | .hbm => 60
  | .vmem => 0
  | .smem => 0
  | _ => 0

abbrev bufTy : (tb : Table) → Fin (tcTables nBuf tb) → BufTy
  | .hbm, ⟨0, _⟩ => ⟨S8x64x128x128, .f32⟩
  | .hbm, ⟨1, _⟩ => ⟨S4, .f32⟩
  | .hbm, ⟨2, _⟩ => ⟨S4, .f32⟩
  | .hbm, ⟨3, _⟩ => ⟨S8x62x128x128, .f32⟩
  | .hbm, ⟨4, _⟩ => ⟨S8x2x128x128, .f32⟩
  | .hbm, ⟨5, _⟩ => ⟨S8x64x128x128, .f32⟩
  | .hbm, ⟨6, _⟩ => ⟨S8x63x128x128, .f32⟩
  | .hbm, ⟨7, _⟩ => ⟨S8x1x128x128, .f32⟩
  | .hbm, ⟨8, _⟩ => ⟨S8x64x128x128, .f32⟩
  | .hbm, ⟨9, _⟩ => ⟨S8x64x128x128, .f32⟩
  | .hbm, ⟨10, _⟩ => ⟨S8x0x128x128, .f32⟩
  | .hbm, ⟨11, _⟩ => ⟨S8x64x128x128, .f32⟩
  | .hbm, ⟨12, _⟩ => ⟨S8x1x128x128, .f32⟩
  | .hbm, ⟨13, _⟩ => ⟨S8x63x128x128, .f32⟩
  | .hbm, ⟨14, _⟩ => ⟨S8x64x128x128, .f32⟩
  | .hbm, ⟨15, _⟩ => ⟨S1, .f32⟩
  | .hbm, ⟨16, _⟩ => ⟨S_, .f32⟩
  | .hbm, ⟨17, _⟩ => ⟨S8x64x128x128, .f32⟩
  | .hbm, ⟨18, _⟩ => ⟨S8x64x128x128, .f32⟩
  | .hbm, ⟨19, _⟩ => ⟨S_, .f32⟩
  | .hbm, ⟨20, _⟩ => ⟨S8x64x128x128, .f32⟩
  | .hbm, ⟨21, _⟩ => ⟨S8x64x128x128, .f32⟩
  | .hbm, ⟨22, _⟩ => ⟨S1, .f32⟩
  | .hbm, ⟨23, _⟩ => ⟨S_, .f32⟩
  | .hbm, ⟨24, _⟩ => ⟨S8x64x128x128, .f32⟩
  | .hbm, ⟨25, _⟩ => ⟨S8x64x128x128, .f32⟩
  | .hbm, ⟨26, _⟩ => ⟨S8x64x128x128, .f32⟩
  | .hbm, ⟨27, _⟩ => ⟨S1, .f32⟩
  | .hbm, ⟨28, _⟩ => ⟨S_, .f32⟩
  | .hbm, ⟨29, _⟩ => ⟨S8x64x128x128, .f32⟩
  | .hbm, ⟨30, _⟩ => ⟨S8x64x128x128, .f32⟩
  | .hbm, ⟨31, _⟩ => ⟨S8x64x128x128, .f32⟩
  | .hbm, ⟨32, _⟩ => ⟨S1, .f32⟩
  | .hbm, ⟨33, _⟩ => ⟨S_, .f32⟩
  | .hbm, ⟨34, _⟩ => ⟨S8x64x128x128, .f32⟩
  | .hbm, ⟨35, _⟩ => ⟨S8x64x128x128, .f32⟩
  | .hbm, ⟨36, _⟩ => ⟨S8x64x128x128, .f32⟩
  | .hbm, ⟨37, _⟩ => ⟨S1, .f32⟩
  | .hbm, ⟨38, _⟩ => ⟨S_, .f32⟩
  | .hbm, ⟨39, _⟩ => ⟨S8x64x128x128, .f32⟩
  | .hbm, ⟨40, _⟩ => ⟨S8x64x128x128, .f32⟩
  | .hbm, ⟨41, _⟩ => ⟨S_, .f32⟩
  | .hbm, ⟨42, _⟩ => ⟨S8x64x128x128, .f32⟩
  | .hbm, ⟨43, _⟩ => ⟨S8x64x128x128, .f32⟩
  | .hbm, ⟨44, _⟩ => ⟨S1, .f32⟩
  | .hbm, ⟨45, _⟩ => ⟨S_, .f32⟩
  | .hbm, ⟨46, _⟩ => ⟨S8x64x128x128, .f32⟩
  | .hbm, ⟨47, _⟩ => ⟨S8x64x128x128, .f32⟩
  | .hbm, ⟨48, _⟩ => ⟨S8x64x128x128, .f32⟩
  | .hbm, ⟨49, _⟩ => ⟨S1, .f32⟩
  | .hbm, ⟨50, _⟩ => ⟨S_, .f32⟩
  | .hbm, ⟨51, _⟩ => ⟨S8x64x128x128, .f32⟩
  | .hbm, ⟨52, _⟩ => ⟨S8x64x128x128, .f32⟩
  | .hbm, ⟨53, _⟩ => ⟨S8x64x128x128, .f32⟩
  | .hbm, ⟨54, _⟩ => ⟨S1, .f32⟩
  | .hbm, ⟨55, _⟩ => ⟨S_, .f32⟩
  | .hbm, ⟨56, _⟩ => ⟨S8x64x128x128, .f32⟩
  | .hbm, ⟨57, _⟩ => ⟨S8x64x128x128, .f32⟩
  | .hbm, ⟨58, _⟩ => ⟨S8x64x128x128, .f32⟩
  | .hbm, ⟨59, _⟩ => ⟨S8x128x128x128, .f32⟩
  | _, _ => ⟨S8x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_v1 : Ref sig .tc := ⟨.hbm, 8, rfl⟩
abbrev main_call2_v0 : Ref sig .tc := ⟨.hbm, 9, rfl⟩
abbrev main_call2_v1 : Ref sig .tc := ⟨.hbm, 10, rfl⟩
abbrev main_v2 : Ref sig .tc := ⟨.hbm, 11, rfl⟩
abbrev main_call3_v0 : Ref sig .tc := ⟨.hbm, 12, rfl⟩
abbrev main_call3_v1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]

class Facts₀ : Prop where
  slices_S8x64x128x128_S8x62x128x128_0_2_0_0 : S8x64x128x128.Slices ![0, 2, 0, 0] S8x62x128x128
  slices_S8x64x128x128_S8x2x128x128_0_0_0_0 : S8x64x128x128.Slices ![0, 0, 0, 0] S8x2x128x128
  concatenates_S8x62x128x128_S8x2x128x128_S8x64x128x128_d1 : Shape.Concatenates [S8x62x128x128, S8x2x128x128] S8x64x128x128 1
  slices_S8x64x128x128_S8x63x128x128_0_1_0_0 : S8x64x128x128.Slices ![0, 1, 0, 0] S8x63x128x128
  slices_S8x64x128x128_S8x1x128x128_0_0_0_0 : S8x64x128x128.Slices ![0, 0, 0, 0] S8x1x128x128
  concatenates_S8x63x128x128_S8x1x128x128_S8x64x128x128_d1 : Shape.Concatenates [S8x63x128x128, S8x1x128x128] S8x64x128x128 1
  slices_S8x64x128x128_S8x64x128x128_0_0_0_0 : S8x64x128x128.Slices ![0, 0, 0, 0] S8x64x128x128
  slices_S8x64x128x128_S8x0x128x128_0_0_0_0 : S8x64x128x128.Slices ![0, 0, 0, 0] S8x0x128x128
  concatenates_S8x64x128x128_S8x0x128x128_S8x64x128x128_d1 : Shape.Concatenates [S8x64x128x128, S8x0x128x128] S8x64x128x128 1
  slices_S8x64x128x128_S8x1x128x128_0_63_0_0 : S8x64x128x128.Slices ![0, 63, 0, 0] S8x1x128x128
  slices_S8x64x128x128_S8x63x128x128_0_0_0_0 : S8x64x128x128.Slices ![0, 0, 0, 0] S8x63x128x128
  concatenates_S8x1x128x128_S8x63x128x128_S8x64x128x128_d1 : Shape.Concatenates [S8x1x128x128, S8x63x128x128] S8x64x128x128 1
  slices_S4_S1_0 : S4.Slices ![0] S1
  shapeCasts_S1_S_ : S1.ShapeCasts S_
  bcast_S_S8x64x128x128 : S_.BroadcastsInDim S8x64x128x128 (![] : Fin 0 → Fin S8x64x128x128.rank)
  slices_S4_S1_1 : S4.Slices ![1] S1
  slices_S4_S1_2 : S4.Slices ![2] S1
  slices_S4_S1_3 : S4.Slices ![3] S1
  concatenates_S8x64x128x128_S8x64x128x128_S8x128x128x128_d1 : Shape.Concatenates [S8x64x128x128, S8x64x128x128] S8x128x128x128 1

variable [Facts₀]

class Facts : Prop extends Facts₀ where

variable [Facts]
-- ==== Proof.RefRun.lean ====
/-
  The reference program's @main as one straight line of its fifty-nine host operations, and its run read back.

  The reference computes a one-level periodic wavelet filter bank along the channel axis of x : f32[8, 64, 128, 128]:
  four cyclic shifts of x along the channels (each a concatenation of two slices; the shift by nothing has an empty
  second slice), then for each of the two filters (low-pass and high-pass, four taps each, read entry by entry out of a
  dense table of four words) the running sum  0 + c₀·shift₀ + c₁·shift₁ + c₂·shift₂ + c₃·shift₃  in that order, and the
  two sums concatenated along the channels.  The four shift helpers are module-local functions; a call of one executes
  its three operations on the call's own buffers, so unfolding the calls leaves a plain line of operations.

  `out` spells the value that line leaves in the result buffer as a function of the argument array, with each
  intermediate named (`shift2` … `shift63`, `tap`, `bank`); `out_eq` says the fold of the operations over any buffer
  contents gives it, and `run` that every weakly fair execution ends there with the argument unchanged.
-/
import proofs.«148950_j38740605010207_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the four shift helpers unfolded at their calls (three operations each, into the
    call's buffer record). -/
abbrev ops : List (HloOp τ sig (Elt F)) :=
  [ nullary main_cst (fun i => FloatOps.ofBits .f32 (lit0 (S4.rowMajor i))),
    nullary main_cst_0 (fun i => FloatOps.ofBits .f32 (lit1 (S4.rowMajor i))),
    TRef.unary (.of main_arg0 : TRef sig ⟨S8x64x128x128, .f32⟩) main_call0.v0 (extractStridedSlice S8x62x128x128 ![0, 2, 0, 0] · slices_S8x64x128x128_S8x62x128x128_0_2_0_0),
    TRef.unary (.of main_arg0 : TRef sig ⟨S8x64x128x128, .f32⟩) main_call0.v1 (extractStridedSlice S8x2x128x128 ![0, 0, 0, 0] · slices_S8x64x128x128_S8x2x128x128_0_0_0_0),
    TRef.binary main_call0.v0 main_call0.v1 main_call0.v2 (fun a b => concatenate S8x64x128x128 1 [⟨S8x62x128x128, a⟩, ⟨S8x2x128x128, b⟩] concatenates_S8x62x128x128_S8x2x128x128_S8x64x128x128_d1),
    TRef.unary (.of main_arg0 : TRef sig ⟨S8x64x128x128, .f32⟩) main_call1.v0 (extractStridedSlice S8x63x128x128 ![0, 1, 0, 0] · slices_S8x64x128x128_S8x63x128x128_0_1_0_0),
    TRef.unary (.of main_arg0 : TRef sig ⟨S8x64x128x128, .f32⟩) main_call1.v1 (extractStridedSlice S8x1x128x128 ![0, 0, 0, 0] · slices_S8x64x128x128_S8x1x128x128_0_0_0_0),
    TRef.binary main_call1.v0 main_call1.v1 main_call1.v2 (fun a b => concatenate S8x64x128x128 1 [⟨S8x63x128x128, a⟩, ⟨S8x1x128x128, b⟩] concatenates_S8x63x128x128_S8x1x128x128_S8x64x128x128_d1),
    TRef.unary (.of main_arg0 : TRef sig ⟨S8x64x128x128, .f32⟩) main_call2.v0 (extractStridedSlice S8x64x128x128 ![0, 0, 0, 0] · slices_S8x64x128x128_S8x64x128x128_0_0_0_0),
    TRef.unary (.of main_arg0 : TRef sig ⟨S8x64x128x128, .f32⟩) main_call2.v1 (extractStridedSlice S8x0x128x128 ![0, 0, 0, 0] · slices_S8x64x128x128_S8x0x128x128_0_0_0_0),
    TRef.binary main_call2.v0 main_call2.v1 main_call2.v2 (fun a b => concatenate S8x64x128x128 1 [⟨S8x64x128x128, a⟩, ⟨S8x0x128x128, b⟩] concatenates_S8x64x128x128_S8x0x128x128_S8x64x128x128_d1),
    TRef.unary (.of main_arg0 : TRef sig ⟨S8x64x128x128, .f32⟩) main_call3.v0 (extractStridedSlice S8x1x128x128 ![0, 63, 0, 0] · slices_S8x64x128x128_S8x1x128x128_0_63_0_0),
    TRef.unary (.of main_arg0 : TRef sig ⟨S8x64x128x128, .f32⟩) main_call3.v1 (extractStridedSlice S8x63x128x128 ![0, 0, 0, 0] · slices_S8x64x128x128_S8x63x128x128_0_0_0_0),
    TRef.binary main_call3.v0 main_call3.v1 main_call3.v2 (fun a b => concatenate S8x64x128x128 1 [⟨S8x1x128x128, a⟩, ⟨S8x63x128x128, b⟩] concatenates_S8x1x128x128_S8x63x128x128_S8x64x128x128_d1),
    unary main_cst main_v4 (extractStridedSlice S1 ![0] · slices_S4_S1_0),
    reshape main_v4 main_v5 rfl shapeCasts_S1_S_,
    unary main_v5 main_v6 (broadcastInDim S8x64x128x128 ![] bcast_S_S8x64x128x128),
    binary main_v6 main_v0 main_v7 mulf,
    nullary main_cst_1 (constant S_ .f32 0x00000000#32),
    unary main_cst_1 main_v8 (broadcastInDim S8x64x128x128 ![] bcast_S_S8x64x128x128),
    binary main_v8 main_v7 main_v9 addf,
    unary main_cst main_v10 (extractStridedSlice S1 ![1] · slices_S4_S1_1),
    reshape main_v10 main_v11 rfl shapeCasts_S1_S_,
    unary main_v11 main_v12 (broadcastInDim S8x64x128x128 ![] bcast_S_S8x64x128x128),
    binary main_v12 main_v1 main_v13 mulf,
    binary main_v9 main_v13 main_v14 addf,
    unary main_cst main_v15 (extractStridedSlice S1 ![2] · slices_S4_S1_2),
    reshape main_v15 main_v16 rfl shapeCasts_S1_S_,
    unary main_v16 main_v17 (broadcastInDim S8x64x128x128 ![] bcast_S_S8x64x128x128),
    binary main_v17 main_v2 main_v18 mulf,
    binary main_v14 main_v18 main_v19 addf,
    unary main_cst main_v20 (extractStridedSlice S1 ![3] · slices_S4_S1_3),
    reshape main_v20 main_v21 rfl shapeCasts_S1_S_,
    unary main_v21 main_v22 (broadcastInDim S8x64x128x128 ![] bcast_S_S8x64x128x128),
    binary main_v22 main_v3 main_v23 mulf,
    binary main_v19 main_v23 main_v24 addf,
    unary main_cst_0 main_v25 (extractStridedSlice S1 ![0] · slices_S4_S1_0),
    reshape main_v25 main_v26 rfl shapeCasts_S1_S_,
    unary main_v26 main_v27 (broadcastInDim S8x64x128x128 ![] bcast_S_S8x64x128x128),
    binary main_v27 main_v0 main_v28 mulf,
    nullary main_cst_2 (constant S_ .f32 0x00000000#32),
    unary main_cst_2 main_v29 (broadcastInDim S8x64x128x128 ![] bcast_S_S8x64x128x128),
    binary main_v29 main_v28 main_v30 addf,
    unary main_cst_0 main_v31 (extractStridedSlice S1 ![1] · slices_S4_S1_1),
    reshape main_v31 main_v32 rfl shapeCasts_S1_S_,
    unary main_v32 main_v33 (broadcastInDim S8x64x128x128 ![] bcast_S_S8x64x128x128),
    binary main_v33 main_v1 main_v34 mulf,
    binary main_v30 main_v34 main_v35 addf,
    unary main_cst_0 main_v36 (extractStridedSlice S1 ![2] · slices_S4_S1_2),
    reshape main_v36 main_v37 rfl shapeCasts_S1_S_,
    unary main_v37 main_v38 (broadcastInDim S8x64x128x128 ![] bcast_S_S8x64x128x128),
    binary main_v38 main_v2 main_v39 mulf,
    binary main_v35 main_v39 main_v40 addf,
    unary main_cst_0 main_v41 (extractStridedSlice S1 ![3] · slices_S4_S1_3),
    reshape main_v41 main_v42 rfl shapeCasts_S1_S_,
    unary main_v42 main_v43 (broadcastInDim S8x64x128x128 ![] bcast_S_S8x64x128x128),
    binary main_v43 main_v3 main_v44 mulf,
    binary main_v40 main_v44 main_v45 addf,
    binary main_v24 main_v45 main_v46 (fun a b => concatenate S8x128x128x128 1 [⟨S8x64x128x128, a⟩, ⟨S8x64x128x128, b⟩] concatenates_S8x64x128x128_S8x64x128x128_S8x128x128x128_d1) ]

set_option maxRecDepth 4096 in
/-- @main is that straight line: the helpers' definitions unfolded at their calls, both sides are one chain of
    host steps once the sequencing is reassociated. -/
theorem main_eq (c : Dev nD) : main (F := F) c = seq ops := by
  simp only [main, fn_roll_static.body, fn_roll_static_0.body, fn_roll_static_1.body, fn_roll_static_2.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub ..,
    unary_bufs_sub .., unary_bufs_sub .., binary_bufs_sub ..,
    unary_bufs_sub .., unary_bufs_sub .., binary_bufs_sub ..,
    unary_bufs_sub .., unary_bufs_sub .., binary_bufs_sub ..,
    unary_bufs_sub .., unary_bufs_sub .., binary_bufs_sub ..,
    unary_bufs_sub .., reshape_bufs_sub .., unary_bufs_sub .., binary_bufs_sub .., nullary_bufs_sub .., unary_bufs_sub .., binary_bufs_sub ..,
    unary_bufs_sub .., reshape_bufs_sub .., unary_bufs_sub .., binary_bufs_sub .., binary_bufs_sub ..,
    unary_bufs_sub .., reshape_bufs_sub .., unary_bufs_sub .., binary_bufs_sub .., binary_bufs_sub ..,
    unary_bufs_sub .., reshape_bufs_sub .., unary_bufs_sub .., binary_bufs_sub .., binary_bufs_sub ..,
    unary_bufs_sub .., reshape_bufs_sub .., unary_bufs_sub .., binary_bufs_sub .., nullary_bufs_sub .., unary_bufs_sub .., binary_bufs_sub ..,
    unary_bufs_sub .., reshape_bufs_sub .., unary_bufs_sub .., binary_bufs_sub .., binary_bufs_sub ..,
    unary_bufs_sub .., reshape_bufs_sub .., unary_bufs_sub .., binary_bufs_sub .., binary_bufs_sub ..,
    unary_bufs_sub .., reshape_bufs_sub .., unary_bufs_sub .., binary_bufs_sub .., binary_bufs_sub ..,
    binary_bufs_sub ..⟩

/-! ## The result as a function of the argument -/

/-- The channels shifted so that channel `k` reads channel `k + 2` (the last two read the first two). -/
def shift2 (x : FVec F S8x64x128x128 .f32) : FVec F S8x64x128x128 .f32 :=
  concatenate S8x64x128x128 1 [⟨S8x62x128x128, extractStridedSlice S8x62x128x128 ![0, 2, 0, 0] x slices_S8x64x128x128_S8x62x128x128_0_2_0_0⟩,
    ⟨S8x2x128x128, extractStridedSlice S8x2x128x128 ![0, 0, 0, 0] x slices_S8x64x128x128_S8x2x128x128_0_0_0_0⟩] concatenates_S8x62x128x128_S8x2x128x128_S8x64x128x128_d1

/-- Channel `k` reads channel `k + 1` (the last reads the first). -/
def shift1 (x : FVec F S8x64x128x128 .f32) : FVec F S8x64x128x128 .f32 :=
  concatenate S8x64x128x128 1 [⟨S8x63x128x128, extractStridedSlice S8x63x128x128 ![0, 1, 0, 0] x slices_S8x64x128x128_S8x63x128x128_0_1_0_0⟩,
    ⟨S8x1x128x128, extractStridedSlice S8x1x128x128 ![0, 0, 0, 0] x slices_S8x64x128x128_S8x1x128x128_0_0_0_0⟩] concatenates_S8x63x128x128_S8x1x128x128_S8x64x128x128_d1

/-- The shift by nothing: the whole array followed by an empty slice. -/
def shift0 (x : FVec F S8x64x128x128 .f32) : FVec F S8x64x128x128 .f32 :=
  concatenate S8x64x128x128 1 [⟨S8x64x128x128, extractStridedSlice S8x64x128x128 ![0, 0, 0, 0] x slices_S8x64x128x128_S8x64x128x128_0_0_0_0⟩,
    ⟨S8x0x128x128, extractStridedSlice S8x0x128x128 ![0, 0, 0, 0] x slices_S8x64x128x128_S8x0x128x128_0_0_0_0⟩] concatenates_S8x64x128x128_S8x0x128x128_S8x64x128x128_d1

/-- Channel `k` reads channel `k - 1` (the first reads the last). -/
def shift63 (x : FVec F S8x64x128x128 .f32) : FVec F S8x64x128x128 .f32 :=
  concatenate S8x64x128x128 1 [⟨S8x1x128x128, extractStridedSlice S8x1x128x128 ![0, 63, 0, 0] x slices_S8x64x128x128_S8x1x128x128_0_63_0_0⟩,
    ⟨S8x63x128x128, extractStridedSlice S8x63x128x128 ![0, 0, 0, 0] x slices_S8x64x128x128_S8x63x128x128_0_0_0_0⟩] concatenates_S8x1x128x128_S8x63x128x128_S8x64x128x128_d1

/-- One entry of a filter table as the program reads it: the entry sliced out, reshaped to a scalar, broadcast. -/
def tap (lit : Fin 4 → BitVec 32) (off : Fin 1 → Nat) (h : S4.Slices off S1) : FVec F S8x64x128x128 .f32 :=
  broadcastInDim S8x64x128x128 ![] bcast_S_S8x64x128x128
    (shapeCast S_ (extractStridedSlice S1 off (fun i : S4.Idx => (FloatOps.ofBits .f32 (lit (S4.rowMajor i)) : F .f32)) h) shapeCasts_S1_S_)

/-- One filter applied: the running sum from zero of the four taps times the four shifts, in the program's order. -/
def bank (lit : Fin 4 → BitVec 32) (x : FVec F S8x64x128x128 .f32) : FVec F S8x64x128x128 .f32 :=
  addf (addf (addf (addf (broadcastInDim S8x64x128x128 ![] bcast_S_S8x64x128x128 (constant S_ .f32 0x00000000#32))
        (mulf (tap lit ![0] slices_S4_S1_0) (shift2 x)))
      (mulf (tap lit ![1] slices_S4_S1_1) (shift1 x)))
    (mulf (tap lit ![2] slices_S4_S1_2) (shift0 x)))
  (mulf (tap lit ![3] slices_S4_S1_3) (shift63 x))

/-- The result: the low-pass sums on channels 0–63 and the high-pass sums on channels 64–127. -/
def out (x : FVec F S8x64x128x128 .f32) : FVec F S8x128x128x128 .f32 :=
  concatenate S8x128x128x128 1 [⟨S8x64x128x128, bank lit0 x⟩, ⟨S8x64x128x128, bank lit1 x⟩] concatenates_S8x64x128x128_S8x64x128x128_S8x128x128x128_d1

set_option maxRecDepth 8192 in
set_option maxHeartbeats 1000000 in
/-- The fold of the operations at the result buffer is `out` of the argument's contents. -/
theorem out_eq (V : Valuation τ sig (Elt F)) :
    after ops V (main_v46 : DevRef τ sig) = out (V (main_arg0 : DevRef τ sig)) := by
  simp only [after_cons, after_nil]
  rfl

/-- No operation writes the argument. -/
theorem arg0_eq (V : Valuation τ sig (Elt F)) :
    after ops V (main_arg0 : DevRef τ sig) = V (main_arg0 : DevRef τ sig) := by
  simp only [after_cons, after_nil]
  rfl

/-- On every device, at any float instance, from any memory with zero counters: every weakly fair execution of @main
    terminates with the result buffer at `out` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = out (m ((c.tc : Thread nD τ).loc main_arg0))
      ∧ r.2.mem ((c.tc : Thread nD τ).loc main_arg0) = m ((c.tc : Thread nD τ).loc main_arg0) :=
  (θ_run defs _ _).mono (fun _ h c => ⟨(h c main_v46).trans (out_eq _), (h c main_arg0).trans (arg0_eq _)⟩)
    (run_seq scopedRefs_eq scopedSems_eq defs main (fun _ => ops) main_eq (fun _ => ops_sub) m ρ)

end Cert.ReferenceIdeal.RefRun

end
-- ==== Proof.Spec.lean ====
/-
  What both programs compute, index by index: a one-level periodic four-tap filter bank along the channel axis.

  For an array x of shape [8, 64, 128, 128], a batch b, a row h and a column w, write col c = x[b, c, h, w] for the
  column of the 64 channels there.  A filter with words w₀ … w₃ sends it to

      filt w col k  =  (((0 + w₀ · col (k + 2)) + w₁ · col (k + 1)) + w₂ · col k) + w₃ · col (k - 1),

  channel positions taken modulo 64 (`chan o k` is position `k + o` wrapped; `k - 1` is `k + 63`), the sum taken in
  exactly that order from the zero word — so the statement needs no law of the arithmetic and holds for any float
  instance.  The result has 128 channels: channel k < 64 is the low-pass filter at k, channel 64 + k the high-pass
  filter at k (`bankAt`).  The filters' words are the Daubechies-2 decomposition pair divided by √2, as the two programs'
  own literals spell them (`lo`, `hi`).
-/
import Idealize.ShloMosaic.PureOps
import Idealize.ShloMosaic.Lib.ValueIdx

noncomputable section

namespace Cert.Swt

open Idealize.ShloMosaic Idealize.ShloMosaic.ValueIdx

variable {F : FTy → Type} [FloatOps F]

/-- Channel `k + o`, wrapped at 64. -/
def chan (o : Nat) (k : Fin 64) : Fin 64 := ⟨(k.val + o) % 64, Nat.mod_lt _ (by decide)⟩

theorem chan_val (o : Nat) (k : Fin 64) : (chan o k).val = (k.val + o) % 64 := rfl

/-- The low-pass filter's four words. -/
abbrev lo : Fin 4 → BitVec 32 := ![0xBDBB67AF#32, 0x3E224C29#32, 0x3F176CF6#32, 0x3EAED9EC#32]
/-- The high-pass filter's four words. -/
abbrev hi : Fin 4 → BitVec 32 := ![0xBEAED9EC#32, 0x3F176CF6#32, 0xBE224C29#32, 0xBDBB67AF#32]

/-- One filter on one column of channels, at channel `k`: the four taps summed from zero, in order. -/
def filt (w : Fin 4 → BitVec 32) (col : Fin 64 → F .f32) (k : Fin 64) : F .f32 :=
  FloatOps.addf (FloatOps.addf (FloatOps.addf (FloatOps.addf (FloatOps.ofBits .f32 0x00000000#32)
        (FloatOps.mulf (FloatOps.ofBits .f32 (w 0)) (col (chan 2 k))))
      (FloatOps.mulf (FloatOps.ofBits .f32 (w 1)) (col (chan 1 k))))
    (FloatOps.mulf (FloatOps.ofBits .f32 (w 2)) (col k)))
  (FloatOps.mulf (FloatOps.ofBits .f32 (w 3)) (col (chan 63 k)))

/-- The column of channels of `x` at batch `b`, row `h`, column `w`. -/
def colOf (x : FVec F ⟨4, ![8, 64, 128, 128]⟩ .f32) (b : Fin 8) (h w : Fin 128) : Fin 64 → F .f32 :=
  fun c => x (ix4 b c h w)

/-- Both filters on one column of channels, at channel `k` of 128: low-pass on channels 0–63, high-pass on 64–127. -/
def bank4 (col : Fin 64 → F .f32) (k : Fin 128) : F .f32 :=
  if hk : k.val < 64 then filt lo col ⟨k.val, hk⟩ else filt hi col ⟨k.val - 64, by have := k.isLt; omega⟩

theorem bank4_low (col : Fin 64 → F .f32) (k : Fin 128) (hk : k.val < 64) : bank4 col k = filt lo col ⟨k.val, hk⟩ := dif_pos hk

theorem bank4_high (col : Fin 64 → F .f32) (k : Fin 128) (hk : ¬ k.val < 64) (hk' : k.val - 64 < 64) :
    bank4 col k = filt hi col ⟨k.val - 64, hk'⟩ := dif_neg hk

/-- The result as an array: at (b, k, h, w) both filters on the column of channels of `x` at (b, h, w). -/
def bankAt (x : FVec F ⟨4, ![8, 64, 128, 128]⟩ .f32) : FVec F ⟨4, ![8, 128, 128, 128]⟩ .f32 :=
  fun i => bank4 (colOf x (i 0) (i 2) (i 3)) (i 1)

theorem bankAt_ix4 (x : FVec F ⟨4, ![8, 64, 128, 128]⟩ .f32) (b : Fin 8) (k : Fin 128) (h w : Fin 128) :
    bankAt x (ix4 b k h w) = bank4 (colOf x b h w) k := rfl

end Cert.Swt

end
-- ==== Proof.LibRollRead.lean ====
/-
  A cyclic shift written as two slices joined, read at an index.

  `jnp.roll` of an array along one axis by a static amount lowers to the slice from offset `o` to the end (extent `p`)
  followed by the slice from `0` (extent `q`), concatenated along that axis.  Read at position `k` of the axis the
  result is the operand at `o + k` when `k < p` and at `k - p` otherwise: the position `(k + o) mod (p + q)` when
  `o + p = p + q`, but the lemmas below do not need that and leave the source position to the caller.  They are stated
  for an axis-1 shift of a rank-4 array and an axis-0 shift of a rank-3 array, over indices written by coordinates,
  together with the two-piece concatenation itself at such an index and the rank-3 slice along axis 0.
-/
import Idealize.ShloMosaic.Lib.ValueLayout

namespace Cert.RollRead

open Idealize.ShloMosaic Idealize.ShloMosaic.ValueIdx

variable {α : Type}

/-! ## Two pieces joined along axis 1 of a rank-4 array -/

/-- A position inside the first piece reads the first piece there. -/
theorem concat4_axis1_left {n0 n1 n2 n3 p q : Nat} (X₁ : (⟨4, ![n0, p, n2, n3]⟩ : Shape).Idx → α) (X₂ : (⟨4, ![n0, q, n2, n3]⟩ : Shape).Idx → α)
    (hc : Shape.Concatenates [⟨4, ![n0, p, n2, n3]⟩, ⟨4, ![n0, q, n2, n3]⟩] ⟨4, ![n0, n1, n2, n3]⟩ 1)
    (a : Fin n0) (k : Fin n1) (c : Fin n2) (e : Fin n3) (k₁ : Fin p) (hk : k₁.val = k.val) :
    concatenate ⟨4, ![n0, n1, n2, n3]⟩ 1 [⟨⟨4, ![n0, p, n2, n3]⟩, X₁⟩, ⟨⟨4, ![n0, q, n2, n3]⟩, X₂⟩] hc (ix4 a k c e) = X₁ (ix4 a k₁ c e) :=
  concatenate_pair_apply_left 1 X₁ X₂ hc (ix4 a k c e) rfl (ix4 a k₁ c e) (fun b => by
    match b with
    | ⟨0, _⟩ => rfl
    | ⟨1, _⟩ => exact hk
    | ⟨2, _⟩ => rfl
    | ⟨3, _⟩ => rfl)

/-- A position past the first piece reads the second piece, the first extent less. -/
theorem concat4_axis1_right {n0 n1 n2 n3 p q : Nat} (X₁ : (⟨4, ![n0, p, n2, n3]⟩ : Shape).Idx → α) (X₂ : (⟨4, ![n0, q, n2, n3]⟩ : Shape).Idx → α)
    (hc : Shape.Concatenates [⟨4, ![n0, p, n2, n3]⟩, ⟨4, ![n0, q, n2, n3]⟩] ⟨4, ![n0, n1, n2, n3]⟩ 1)
    (a : Fin n0) (k : Fin n1) (c : Fin n2) (e : Fin n3) (k₂ : Fin q) (hk : k₂.val + p = k.val) :
    concatenate ⟨4, ![n0, n1, n2, n3]⟩ 1 [⟨⟨4, ![n0, p, n2, n3]⟩, X₁⟩, ⟨⟨4, ![n0, q, n2, n3]⟩, X₂⟩] hc (ix4 a k c e) = X₂ (ix4 a k₂ c e) :=
  concatenate_pair_apply_right 1 X₁ X₂ hc (ix4 a k c e) rfl rfl (ix4 a k₂ c e) (fun b hb => by
    match b with
    | ⟨0, _⟩ => rfl
    | ⟨1, _⟩ => exact absurd rfl hb
    | ⟨2, _⟩ => rfl
    | ⟨3, _⟩ => rfl) hk

/-- THE SHIFT along axis 1: the slice from `o` (extent `p`) then the slice from `0` (extent `q`) reads, at position `k`,
    the operand at `o + k` inside the first piece and at `k - p` past it. -/
theorem roll4_axis1_apply {n0 n1 n2 n3 p q : Nat} (o : Nat) (X : (⟨4, ![n0, n1, n2, n3]⟩ : Shape).Idx → α)
    (h1 : (⟨4, ![n0, n1, n2, n3]⟩ : Shape).Slices ![0, o, 0, 0] ⟨4, ![n0, p, n2, n3]⟩)
    (h2 : (⟨4, ![n0, n1, n2, n3]⟩ : Shape).Slices ![0, 0, 0, 0] ⟨4, ![n0, q, n2, n3]⟩)
    (hc : Shape.Concatenates [⟨4, ![n0, p, n2, n3]⟩, ⟨4, ![n0, q, n2, n3]⟩] ⟨4, ![n0, n1, n2, n3]⟩ 1)
    (hpq : p + q = n1)
    (a : Fin n0) (k : Fin n1) (c : Fin n2) (e : Fin n3) (k' : Fin n1)
    (hk' : k'.val = if k.val < p then o + k.val else k.val - p) :
    concatenate ⟨4, ![n0, n1, n2, n3]⟩ 1
        [⟨⟨4, ![n0, p, n2, n3]⟩, extractStridedSlice ⟨4, ![n0, p, n2, n3]⟩ ![0, o, 0, 0] X h1⟩,
         ⟨⟨4, ![n0, q, n2, n3]⟩, extractStridedSlice ⟨4, ![n0, q, n2, n3]⟩ ![0, 0, 0, 0] X h2⟩] hc (ix4 a k c e)
      = X (ix4 a k' c e) := by
  by_cases hlt : k.val < p
  · rw [if_pos hlt] at hk'
    rw [concat4_axis1_left _ _ hc a k c e ⟨k.val, hlt⟩ rfl]
    exact slice4_axis1_apply o X h1 a ⟨k.val, hlt⟩ c e k' hk'
  · rw [if_neg hlt] at hk'
    have hq : k.val - p < q := by have := k.isLt; omega
    rw [concat4_axis1_right _ _ hc a k c e ⟨k.val - p, hq⟩ (by show k.val - p + p = k.val; omega)]
    exact slice4_axis1_apply 0 X h2 a ⟨k.val - p, hq⟩ c e k' (by show k'.val = 0 + (k.val - p); omega)

/-! ## The same along axis 0 of a rank-3 array -/

/-- A rank-3 array cut along axis 0 from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A position inside the first piece reads the first piece there. -/
theorem concat3_axis0_left {n0 n1 n2 p q : Nat} (X₁ : (⟨3, ![p, n1, n2]⟩ : Shape).Idx → α) (X₂ : (⟨3, ![q, n1, n2]⟩ : Shape).Idx → α)
    (hc : Shape.Concatenates [⟨3, ![p, n1, n2]⟩, ⟨3, ![q, n1, n2]⟩] ⟨3, ![n0, n1, n2]⟩ 0)
    (k : Fin n0) (b : Fin n1) (e : Fin n2) (k₁ : Fin p) (hk : k₁.val = k.val) :
    concatenate ⟨3, ![n0, n1, n2]⟩ 0 [⟨⟨3, ![p, n1, n2]⟩, X₁⟩, ⟨⟨3, ![q, n1, n2]⟩, X₂⟩] hc (ix3 k b e) = X₁ (ix3 k₁ b e) :=
  concatenate_pair_apply_left 0 X₁ X₂ hc (ix3 k b e) rfl (ix3 k₁ b e) (fun d => by
    match d with
    | ⟨0, _⟩ => exact hk
    | ⟨1, _⟩ => rfl
    | ⟨2, _⟩ => rfl)

/-- A position past the first piece reads the second piece, the first extent less. -/
theorem concat3_axis0_right {n0 n1 n2 p q : Nat} (X₁ : (⟨3, ![p, n1, n2]⟩ : Shape).Idx → α) (X₂ : (⟨3, ![q, n1, n2]⟩ : Shape).Idx → α)
    (hc : Shape.Concatenates [⟨3, ![p, n1, n2]⟩, ⟨3, ![q, n1, n2]⟩] ⟨3, ![n0, n1, n2]⟩ 0)
    (k : Fin n0) (b : Fin n1) (e : Fin n2) (k₂ : Fin q) (hk : k₂.val + p = k.val) :
    concatenate ⟨3, ![n0, n1, n2]⟩ 0 [⟨⟨3, ![p, n1, n2]⟩, X₁⟩, ⟨⟨3, ![q, n1, n2]⟩, X₂⟩] hc (ix3 k b e) = X₂ (ix3 k₂ b e) :=
  concatenate_pair_apply_right 0 X₁ X₂ hc (ix3 k b e) rfl rfl (ix3 k₂ b e) (fun d hd => by
    match d with
    | ⟨0, _⟩ => exact absurd rfl hd
    | ⟨1, _⟩ => rfl
    | ⟨2, _⟩ => rfl) hk

/-- THE SHIFT along axis 0: the slice from `o` (extent `p`) then the slice from `0` (extent `q`) reads, at position `k`,
    the operand at `o + k` inside the first piece and at `k - p` past it. -/
theorem roll3_axis0_apply {n0 n1 n2 p q : Nat} (o : Nat) (X : (⟨3, ![n0, n1, n2]⟩ : Shape).Idx → α)
    (h1 : (⟨3, ![n0, n1, n2]⟩ : Shape).Slices ![o, 0, 0] ⟨3, ![p, n1, n2]⟩)
    (h2 : (⟨3, ![n0, n1, n2]⟩ : Shape).Slices ![0, 0, 0] ⟨3, ![q, n1, n2]⟩)
    (hc : Shape.Concatenates [⟨3, ![p, n1, n2]⟩, ⟨3, ![q, n1, n2]⟩] ⟨3, ![n0, n1, n2]⟩ 0)
    (hpq : p + q = n0)
    (k : Fin n0) (b : Fin n1) (e : Fin n2) (k' : Fin n0)
    (hk' : k'.val = if k.val < p then o + k.val else k.val - p) :
    concatenate ⟨3, ![n0, n1, n2]⟩ 0
        [⟨⟨3, ![p, n1, n2]⟩, extractStridedSlice ⟨3, ![p, n1, n2]⟩ ![o, 0, 0] X h1⟩,
         ⟨⟨3, ![q, n1, n2]⟩, extractStridedSlice ⟨3, ![q, n1, n2]⟩ ![0, 0, 0] X h2⟩] hc (ix3 k b e)
      = X (ix3 k' b e) := by
  by_cases hlt : k.val < p
  · rw [if_pos hlt] at hk'
    rw [concat3_axis0_left _ _ hc k b e ⟨k.val, hlt⟩ rfl]
    exact slice3_axis0_apply o X h1 ⟨k.val, hlt⟩ b e k' hk'
  · rw [if_neg hlt] at hk'
    have hq : k.val - p < q := by have := k.isLt; omega
    rw [concat3_axis0_right _ _ hc k b e ⟨k.val - p, hq⟩ (by show k.val - p + p = k.val; omega)]
    exact slice3_axis0_apply 0 X h2 ⟨k.val - p, hq⟩ b e k' (by show k'.val = 0 + (k.val - p); omega)

end Cert.RollRead
-- ==== Proof.RefValue.lean ====
/-
  The reference's result, index by index, is the filter bank.

  Each of the reference's four shifted copies of x is two slices joined along the channel axis, so at channel k it reads
  x at channel k + 2, k + 1, k, k - 1 (wrapped at 64); each filter entry, sliced out of its four-word table, reshaped to
  a scalar and broadcast, reads the table's word everywhere; sums and products act entry by entry.  So one filter's
  running sum at (b, k, h, w) is `filt` of the column of channels at (b, h, w), and the final concatenation puts the
  low-pass sums on channels 0–63 and the high-pass sums on channels 64–127: `bankAt`.
-/
import proofs.«148950_j38740605010207_1_alg».proof.Proof.RefRun
import proofs.«148950_j38740605010207_1_alg».proof.Proof.Spec
import proofs.«148950_j38740605010207_1_alg».proof.Proof.LibRollRead

noncomputable section

namespace Cert.ReferenceIdeal.RefValue

open Cert.ReferenceIdeal Cert.ReferenceIdeal.Gen Cert.ReferenceIdeal.RefRun Cert.Swt
open Idealize.ShloMosaic Idealize.ShloMosaic.ValueIdx Cert.RollRead

variable {F : FTy → Type} [FloatOps F]

/-- A table entry sliced out at offset `n`, reshaped and broadcast, is the table's word `n` at every index. -/
theorem tap_apply (lit : Fin 4 → BitVec 32) (off : Fin 1 → Nat) (h : S4.Slices off S1) (n : Fin 4) (hn : n.val = off 0)
    (j : S8x64x128x128.Idx) : (tap lit off h : FVec F S8x64x128x128 .f32) j = FloatOps.ofBits .f32 (lit n) := by
  unfold tap broadcastInDim shapeCast extractStridedSlice
  refine congrArg (fun t => (FloatOps.ofBits .f32 (lit t) : F .f32)) (Fin.ext ?_)
  rw [Shape.rowMajor_val_one]
  have he : ∀ e : Fin 1, off 0 + e.val = n.val := fun e => by omega
  exact he _

/-- One shifted copy each: at channel `k` the copy reads `x` at channel `k + 2`, `k + 1`, `k`, `k - 1`, wrapped at 64. -/
theorem shift2_apply (x : FVec F S8x64x128x128 .f32) (b : Fin 8) (k : Fin 64) (h w : Fin 128) :
    shift2 x (ix4 b k h w) = x (ix4 b (chan 2 k) h w) := by
  unfold shift2
  exact roll4_axis1_apply 2 x _ _ _ rfl b k h w (chan 2 k) (by rw [chan_val]; have := k.isLt; split <;> omega)

theorem shift1_apply (x : FVec F S8x64x128x128 .f32) (b : Fin 8) (k : Fin 64) (h w : Fin 128) :
    shift1 x (ix4 b k h w) = x (ix4 b (chan 1 k) h w) := by
  unfold shift1
  exact roll4_axis1_apply 1 x _ _ _ rfl b k h w (chan 1 k) (by rw [chan_val]; have := k.isLt; split <;> omega)

theorem shift0_apply (x : FVec F S8x64x128x128 .f32) (b : Fin 8) (k : Fin 64) (h w : Fin 128) :
    shift0 x (ix4 b k h w) = x (ix4 b k h w) := by
  unfold shift0
  exact roll4_axis1_apply 0 x _ _ _ rfl b k h w k (by have := k.isLt; split <;> omega)

theorem shift63_apply (x : FVec F S8x64x128x128 .f32) (b : Fin 8) (k : Fin 64) (h w : Fin 128) :
    shift63 x (ix4 b k h w) = x (ix4 b (chan 63 k) h w) := by
  unfold shift63
  exact roll4_axis1_apply 63 x _ _ _ rfl b k h w (chan 63 k) (by rw [chan_val]; have := k.isLt; split <;> omega)

/-- One filter's running sum at an index is `filt` of the column of channels there. -/
theorem bank_apply (lit w : Fin 4 → BitVec 32) (hw : ∀ n, lit n = w n) (x : FVec F S8x64x128x128 .f32)
    (b : Fin 8) (k : Fin 64) (h c : Fin 128) :
    bank lit x (ix4 b k h c) = filt w (colOf x b h c) k := by
  unfold bank filt colOf
  show FloatOps.addf (FloatOps.addf (FloatOps.addf (FloatOps.addf (FloatOps.ofBits .f32 0x00000000#32)
          (FloatOps.mulf (tap lit ![0] slices_S4_S1_0 (ix4 b k h c)) (shift2 x (ix4 b k h c))))
        (FloatOps.mulf (tap lit ![1] slices_S4_S1_1 (ix4 b k h c)) (shift1 x (ix4 b k h c))))
      (FloatOps.mulf (tap lit ![2] slices_S4_S1_2 (ix4 b k h c)) (shift0 x (ix4 b k h c))))
    (FloatOps.mulf (tap lit ![3] slices_S4_S1_3 (ix4 b k h c)) (shift63 x (ix4 b k h c))) = _
  rw [tap_apply lit _ _ 0 rfl, tap_apply lit _ _ 1 rfl, tap_apply lit _ _ 2 rfl, tap_apply lit _ _ 3 rfl,
    shift2_apply, shift1_apply, shift0_apply, shift63_apply, hw 0, hw 1, hw 2, hw 3]

theorem lit0_eq : ∀ n : Fin 4, lit0 n = lo n := by decide
theorem lit1_eq : ∀ n : Fin 4, lit1 n = hi n := by decide

/-- THE REFERENCE'S RESULT is the filter bank of its argument. -/
theorem out_eq_bankAt (x : FVec F S8x64x128x128 .f32) : out x = bankAt x := by
  funext i
  obtain ⟨b, k, h, c, rfl⟩ : ∃ (b : Fin 8) (k : Fin 128) (h c : Fin 128), i = ix4 b k h c := ⟨i 0, i 1, i 2, i 3, eq_ix4 i⟩
  rw [bankAt_ix4]
  unfold out
  by_cases hk : k.val < 64
  · rw [concat4_axis1_left _ _ _ b k h c ⟨k.val, hk⟩ rfl, bank_apply lit0 lo lit0_eq, bank4_low _ k hk]
  · have hk' : k.val - 64 < 64 := by have := k.isLt; omega
    rw [concat4_axis1_right _ _ _ b k h c ⟨k.val - 64, hk'⟩ (by show k.val - 64 + 64 = k.val; omega), bank_apply lit1 hi lit1_eq,
      bank4_high _ k hk hk']

end Cert.ReferenceIdeal.RefValue

end
-- ==== Proof.KernelIdealPayload.lean ====
/-
  The kernel body's two stored values, index by index.

  The body loads its input block, a [1, 64, 32, 128] piece of x holding all 64 channels of 32 rows, drops the unit axis,
  builds three cyclic shifts of it along the channels (two slices joined: channel k reads channel k + 2, k + 1, k - 1,
  wrapped at 64; the unshifted block serves the third tap), and accumulates from a zero splat the four taps times the
  four shifts, once with the low-pass words and once with the high-pass words.  Each sum gets its unit axis back and is
  stored in one half of the output block's channels.  So at (u, k, h, w) each stored value is `filt` of the block's
  column of channels at (h, w): the statement below, for any float instance.
-/
import proofs.«148950_j38740605010207_1_alg».proof.Proof.Gen.KernelIdeal.Skeleton
import proofs.«148950_j38740605010207_1_alg».proof.Proof.Spec
import proofs.«148950_j38740605010207_1_alg».proof.Proof.LibRollRead

noncomputable section

namespace Cert.KernelIdeal.Payload

open Cert.KernelIdeal Cert.KernelIdeal.Gen Cert.Swt
open Idealize.ShloMosaic Idealize.ShloMosaic.ValueIdx Cert.RollRead

variable {F : FTy → Type} [FloatOps F]

/-- The block's column of channels at row `h` and column `w` of the block. -/
def bcol (v0 : Vec F S1x64x32x128 .f32) (h : Fin 32) (w : Fin 128) : Fin 64 → F .f32 := fun c => v0 (ix4 (0 : Fin 1) c h w)

/-- The block without its unit axis. -/
theorem block_apply (v0 : Vec F S1x64x32x128 .f32) (k : Fin 64) (h : Fin 32) (w : Fin 128) :
    k0_pay2 v0 (ix3 k h w) = v0 (ix4 (0 : Fin 1) k h w) := by
  unfold k0_pay2
  exact shapeCast_1abc_abc_apply v0 _ k h w

/-- The three shifted copies: channel `k` reads channel `k + 2`, `k + 1`, `k - 1`, wrapped at 64. -/
theorem up2_apply (v0 : Vec F S1x64x32x128 .f32) (k : Fin 64) (h : Fin 32) (w : Fin 128) :
    k0_pay3 v0 (ix3 k h w) = v0 (ix4 (0 : Fin 1) (chan 2 k) h w) := by
  unfold k0_pay3
  exact (roll3_axis0_apply 2 (k0_pay2 v0) _ _ _ rfl k h w (chan 2 k) (by rw [chan_val]; have := k.isLt; split <;> omega)).trans
    (block_apply v0 _ h w)

theorem up1_apply (v0 : Vec F S1x64x32x128 .f32) (k : Fin 64) (h : Fin 32) (w : Fin 128) :
    k0_pay4 v0 (ix3 k h w) = v0 (ix4 (0 : Fin 1) (chan 1 k) h w) := by
  unfold k0_pay4
  exact (roll3_axis0_apply 1 (k0_pay2 v0) _ _ _ rfl k h w (chan 1 k) (by rw [chan_val]; have := k.isLt; split <;> omega)).trans
    (block_apply v0 _ h w)

theorem down1_apply (v0 : Vec F S1x64x32x128 .f32) (k : Fin 64) (h : Fin 32) (w : Fin 128) :
    k0_pay5 v0 (ix3 k h w) = v0 (ix4 (0 : Fin 1) (chan 63 k) h w) := by
  unfold k0_pay5
  exact (roll3_axis0_apply 63 (k0_pay2 v0) _ _ _ rfl k h w (chan 63 k) (by rw [chan_val]; have := k.isLt; split <;> omega)).trans
    (block_apply v0 _ h w)

/-- The low-pass sum, stored in channels 0–63 of the output block. -/
theorem lowpass_apply (v0 : Vec F S1x64x32x128 .f32) (u : Fin 1) (k : Fin 64) (h : Fin 32) (w : Fin 128) :
    k0_pay7 v0 (ix4 u k h w) = filt lo (bcol v0 h w) k := by
  unfold k0_pay7
  refine (shapeCast_abc_1abc_apply _ _ u k h w).trans ?_
  unfold filt bcol
  show FloatOps.addf (FloatOps.addf (FloatOps.addf (FloatOps.addf (FloatOps.ofBits .f32 0x00000000#32)
          (FloatOps.mulf (FloatOps.ofBits .f32 0xBDBB67AF#32) (k0_pay3 v0 (ix3 k h w))))
        (FloatOps.mulf (FloatOps.ofBits .f32 0x3E224C29#32) (k0_pay4 v0 (ix3 k h w))))
      (FloatOps.mulf (FloatOps.ofBits .f32 0x3F176CF6#32) (k0_pay2 v0 (ix3 k h w))))
    (FloatOps.mulf (FloatOps.ofBits .f32 0x3EAED9EC#32) (k0_pay5 v0 (ix3 k h w))) = _
  rw [up2_apply, up1_apply, block_apply, down1_apply]
  rfl

/-- The high-pass sum, stored in channels 64–127 of the output block. -/
theorem highpass_apply (v0 : Vec F S1x64x32x128 .f32) (u : Fin 1) (k : Fin 64) (h : Fin 32) (w : Fin 128) :
    k0_pay1 (k0_pay6 v0) (ix4 u k h w) = filt hi (bcol v0 h w) k := by
  unfold k0_pay1
  refine (shapeCast_abc_1abc_apply _ _ u k h w).trans ?_
  unfold k0_pay6 filt bcol
  show FloatOps.addf (FloatOps.addf (FloatOps.addf (FloatOps.addf (FloatOps.ofBits .f32 0x00000000#32)
          (FloatOps.mulf (FloatOps.ofBits .f32 0xBEAED9EC#32) (k0_pay3 v0 (ix3 k h w))))
        (FloatOps.mulf (FloatOps.ofBits .f32 0x3F176CF6#32) (k0_pay4 v0 (ix3 k h w))))
      (FloatOps.mulf (FloatOps.ofBits .f32 0xBE224C29#32) (k0_pay2 v0 (ix3 k h w))))
    (FloatOps.mulf (FloatOps.ofBits .f32 0xBDBB67AF#32) (k0_pay5 v0 (ix3 k h w))) = _
  rw [up2_apply, up1_apply, block_apply, down1_apply]
  rfl

end Cert.KernelIdeal.Payload

end
-- ==== Proof.KernelIdealValue.lean ====
/-
  From the body's block to the whole result array.

  At grid point t = (b, r) the pipeline stages the input block x[b, 0:64, 32r : 32r+32, 0:128] and writes back the output
  block y[b, 0:128, 32r : 32r+32, 0:128].  The body stores the low-pass sums through channels 0–63 of the output block
  and the high-pass sums through channels 64–127; the two stores tile the block, so the block after the body is
  `bank4` of the input block's column of channels at each (h, w) (`out_eq_blockBank`).  The input block's column at
  (h, w) is x's column at (b, 32r + h, w), and the output block's index (·, k, h, w) is the array's (b, k, 32r + h, w):
  point t writes back block t of `bankAt x` (`flushed_eq`).  The 8 × 4 points' blocks cover the array, so it ends
  holding `bankAt x` (`final`), and the frame run re-posted says so (`run`).
-/
import proofs.«148950_j38740605010207_1_alg».proof.Proof.Gen.KernelIdeal.Value
import proofs.«148950_j38740605010207_1_alg».proof.Proof.KernelIdealPayload

noncomputable section

namespace Cert.KernelIdeal.BankValue

open Cert.KernelIdeal Cert.KernelIdeal.Gen Cert.KernelIdeal.Payload Cert.Swt
open Idealize.ShloMosaic Idealize.ShloMosaic.TcCoe Idealize.SL.Sem Idealize.ShloMosaic.ValueIdx
open Idealize.ShloMosaic.Pipeline (Dat)

variable {F : FTy → Type} [FloatOps F]

/-! ## The block after the body -/

theorem hz : (![0, 0, 0, 0] : Fin 4 → Nat) = fun _ => 0 := funext fun a => by fin_cases a <;> rfl

/-- Both filters on every column of channels of an input block: what the output block holds after the body. -/
def blockBank (x0 : Vec F S1x64x32x128 .f32) : Vec F S1x128x32x128 .f32 := fun y => bank4 (bcol x0 (y 2) (y 3)) (y 1)

theorem blockBank_ix4 (x0 : Vec F S1x64x32x128 .f32) (u : Fin 1) (k : Fin 128) (h : Fin 32) (w : Fin 128) :
    blockBank x0 (ix4 u k h w) = bank4 (bcol x0 h w) k := rfl

/-- The body's two stores, read together, are `blockBank` of the loaded block: the later store (channels 64–127) holds the
    high-pass sums, the earlier one (channels 0–63) the low-pass sums. -/
theorem out_eq_blockBank (x0 : Vec F S1x64x32x128 .f32) : out0_1 x0 = blockBank x0 := by
  funext y
  unfold out0_1
  refine View.canon_apply_of_pieces (blockBank x0) _ ?_ y (cover0_1 _ _ y)
  intro p hp x
  simp only [List.mem_cons, List.not_mem_nil, or_false] at hp
  rcases hp with rfl | rfl
  · obtain ⟨u, k, h, w, rfl⟩ : ∃ (u : Fin 1) (k : Fin 64) (h : Fin 32) (w : Fin 128), x = ix4 u k h w :=
      ⟨x 0, x 1, x 2, x 3, eq_ix4 x⟩
    show k0_pay1 (k0_pay6 (View.ld x0 r0_0)) (ix4 u k h w) = blockBank x0 (r0_2.emb (ix4 u k h w))
    have he : r0_2.emb (ix4 u k h w) = ix4 (0 : Fin 1) (⟨64 + k.val, by omega⟩ : Fin 128) h w := by
      funext a; apply Fin.ext
      have hu := u.isLt
      match a with
      | ⟨0, _⟩ => show 0 + 1 * u.val = 0; omega
      | ⟨1, _⟩ => show 64 + 1 * k.val = 64 + k.val; omega
      | ⟨2, _⟩ => show 0 + 1 * h.val = h.val; omega
      | ⟨3, _⟩ => show 0 + 1 * w.val = w.val; omega
    rw [highpass_apply, View.ld_unit_zero (S := S1x64x32x128) hz, he, blockBank_ix4,
      bank4_high _ _ (by show ¬ (64 + k.val < 64); omega) (by show 64 + k.val - 64 < 64; omega)]
    exact congrArg (filt hi (bcol x0 h w)) (Fin.ext (by show k.val = 64 + k.val - 64; omega))
  · obtain ⟨u, k, h, w, rfl⟩ : ∃ (u : Fin 1) (k : Fin 64) (h : Fin 32) (w : Fin 128), x = ix4 u k h w :=
      ⟨x 0, x 1, x 2, x 3, eq_ix4 x⟩
    show k0_pay7 (View.ld x0 r0_0) (ix4 u k h w) = blockBank x0 (r0_1.emb (ix4 u k h w))
    have he : r0_1.emb (ix4 u k h w) = ix4 (0 : Fin 1) (⟨k.val, by omega⟩ : Fin 128) h w := by
      funext a; apply Fin.ext
      have hu := u.isLt
      match a with
      | ⟨0, _⟩ => show 0 + 1 * u.val = 0; omega
      | ⟨1, _⟩ => show 0 + 1 * k.val = k.val; omega
      | ⟨2, _⟩ => show 0 + 1 * h.val = h.val; omega
      | ⟨3, _⟩ => show 0 + 1 * w.val = w.val; omega
    rw [lowpass_apply, View.ld_unit_zero (S := S1x64x32x128) hz, he, blockBank_ix4, bank4_low _ _ (by show k.val < 64; omega)]

/-! ## Block `t` of the array -/

variable (m : (ℓ : Loc nD τ sig) → Buf (Elt F) ℓ) (ρ : Dev nD → PrngReg)

/-- The printed index maps, decided over the 32 grid points: the input and output windows move together along the
    batch and row axes and stay at 0 along the channel and column axes. -/
theorem idx_facts : ∀ t : Fin cfg0.N,
    win0_0.index t (0 : Fin 4) = win0_1.index t (0 : Fin 4) ∧ win0_0.index t (1 : Fin 4) = 0 ∧ win0_1.index t (1 : Fin 4) = 0
    ∧ win0_0.index t (2 : Fin 4) = win0_1.index t (2 : Fin 4) ∧ win0_0.index t (3 : Fin 4) = 0 ∧ win0_1.index t (3 : Fin 4) = 0
    ∧ win0_1.index t (0 : Fin 4) ≤ 7 ∧ win0_1.index t (2 : Fin 4) ≤ 3 :=
  (by decide +kernel : ∀ t : Fin grid0.N, _)

/-- Every (batch, row block) pair is some point's. -/
theorem idx_onto : ∀ (q0 : Fin 8) (q2 : Fin 4), ∃ t : Fin cfg0.N, win0_1.index t = ![q0.val, 0, q2.val, 0] :=
  (by decide +kernel : ∀ (q0 : Fin 8) (q2 : Fin 4), ∃ t : Fin grid0.N, win0_1.index t = ![q0.val, 0, q2.val, 0])

/-- WHAT POINT `t` WRITES BACK is block `t` of the filter bank of the argument array. -/
theorem flushed_eq (c : Dev nD) (t : Fin cfg0.N) :
    (dats m 0 c).flushed 1 t = ((cfg0.win 1).blk t).view.read (Elt F) (bankAt (V m c main_arg0)) := by
  rw [Value.flushed1]
  obtain ⟨e0, e1, e2, e3, e4, e5, e6, e7⟩ := idx_facts t
  funext j
  obtain ⟨u, k, h, w, rfl⟩ : ∃ (u : Fin 1) (k : Fin 128) (h : Fin 32) (w : Fin 128), j = ix4 u k h w :=
    ⟨j 0, j 1, j 2, j 3, eq_ix4 j⟩
  show out0_1 (iblk m c 0 t) (ix4 u k h w) = bankAt (V m c main_arg0) (((cfg0.win 1).blk t).view.emb (ix4 u k h w))
  have hu := u.isLt
  have hk := k.isLt
  have hh := h.isLt
  have hw := w.isLt
  have hemb : ((cfg0.win 1).blk t).view.emb (ix4 u k h w)
      = ix4 (⟨win0_1.index t (0 : Fin 4), by omega⟩ : Fin 8) k (⟨win0_1.index t (2 : Fin 4) * 32 + h.val, by omega⟩ : Fin 128) w := by
    funext a; apply Fin.ext
    match a with
    | ⟨0, _⟩ => show win0_1.index t (0 : Fin 4) * 1 + 1 * u.val = win0_1.index t (0 : Fin 4); omega
    | ⟨1, _⟩ => show win0_1.index t (1 : Fin 4) * 128 + 1 * k.val = k.val; omega
    | ⟨2, _⟩ => show win0_1.index t (2 : Fin 4) * 32 + 1 * h.val = win0_1.index t (2 : Fin 4) * 32 + h.val; omega
    | ⟨3, _⟩ => show win0_1.index t (3 : Fin 4) * 128 + 1 * w.val = w.val; omega
  rw [hemb, bankAt_ix4, out_eq_blockBank, blockBank_ix4]
  refine congrArg (fun col => bank4 col k) (funext fun ch => ?_)
  show V m c main_arg0 (((cfg0.win 0).blk t).view.emb (ix4 (0 : Fin 1) ch h w))
    = V m c main_arg0 (ix4 (⟨win0_1.index t (0 : Fin 4), by omega⟩ : Fin 8) ch (⟨win0_1.index t (2 : Fin 4) * 32 + h.val, by omega⟩ : Fin 128) w)
  refine congrArg (V m c main_arg0) (funext fun a => Fin.ext ?_)
  have hch := ch.isLt
  match a with
  | ⟨0, _⟩ => show win0_0.index t (0 : Fin 4) * 1 + 1 * 0 = win0_1.index t (0 : Fin 4); omega
  | ⟨1, _⟩ => show win0_0.index t (1 : Fin 4) * 64 + 1 * ch.val = ch.val; omega
  | ⟨2, _⟩ => show win0_0.index t (2 : Fin 4) * 32 + 1 * h.val = win0_1.index t (2 : Fin 4) * 32 + h.val; omega
  | ⟨3, _⟩ => show win0_0.index t (3 : Fin 4) * 128 + 1 * w.val = w.val; omega

/-- An index of the array is in point `t`'s block iff each coordinate is in the block's range on its axis. -/
theorem mem_blk (t : Fin cfg0.N) (i : S8x128x128x128.Idx) :
    i ∈ ((cfg0.win 1).blk t).view.set ↔ ∀ a : Fin 4, win0_1.index t a * S1x128x32x128.size a ≤ (i a).val ∧ (i a).val < win0_1.index t a * S1x128x32x128.size a + S1x128x32x128.size a := by
  show i ∈ ((View.whole main_v0).slice (win0_1.rect t)).set ↔ _
  rw [View.set_slice_whole, Rect.mem_set_unit]
  exact Iff.rfl

/-- Every index of the array is in some point's block: batch `i 0`, row block `i 2 / 32`. -/
theorem cover (i : S8x128x128x128.Idx) : ∃ t : Fin cfg0.N, (cfg0.win 1).flush t = true ∧ i ∈ ((cfg0.win 1).blk t).view.set := by
  have hi0 : (i 0).val < 8 := (i 0).isLt
  have hi1 : (i 1).val < 128 := (i 1).isLt
  have hi2 : (i 2).val < 128 := (i 2).isLt
  have hi3 : (i 3).val < 128 := (i 3).isLt
  obtain ⟨t, ht⟩ := idx_onto ⟨(i 0).val, hi0⟩ ⟨(i 2).val / 32, by omega⟩
  have q0 : win0_1.index t (0 : Fin 4) = (i 0).val := congrFun ht 0
  have q1 : win0_1.index t (1 : Fin 4) = 0 := congrFun ht 1
  have q2 : win0_1.index t (2 : Fin 4) = (i 2).val / 32 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 128 ≤ (i 1).val ∧ (i 1).val < win0_1.index t (1 : Fin 4) * 128 + 128; omega
  | ⟨2, _⟩ => show win0_1.index t (2 : Fin 4) * 32 ≤ (i 2).val ∧ (i 2).val < win0_1.index t (2 : Fin 4) * 32 + 32; omega
  | ⟨3, _⟩ => show win0_1.index t (3 : Fin 4) * 128 ≤ (i 3).val ∧ (i 3).val < win0_1.index t (3 : Fin 4) * 128 + 128; omega

/-- THE ARRAY after the run is the filter bank of the argument array. -/
theorem final (c : Dev nD) : (dats m 0 c).arrAt 1 cfg0.N = bankAt (m ((c : Thread nD τ).loc main_arg0)) :=
  (dats m 0 c).arrAt_eq_of_cover 1 (bankAt (V m c main_arg0)) (fun t _ => flushed_eq m c t) cover

/-- The frame run re-posted: the result array at the filter bank of the argument, the argument unchanged. -/
theorem run : θ_run defs (onTc (τ := τ) (main (F := F))) ⟨m, fun _ => 0, ρ⟩ fun r => ∀ c : Dev nD,
      r.2.mem ((c : Thread nD τ).loc main_v0) = bankAt (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.BankValue

end
-- ==== Proof.lean ====
/-
  The proof of `Cert.Claim` for a one-level periodic wavelet filter bank along the channel axis.

  Both programs map x : f32[8, 64, 128, 128] to y : f32[8, 128, 128, 128] where, for each batch b, row h and column w,
  channels 0–63 of y hold the four-tap low-pass filter of x's column of 64 channels at (b, h, w) and channels 64–127 the
  high-pass filter:   y[b, k] = (((0 + c₀·x[b, k+2]) + c₁·x[b, k+1]) + c₂·x[b, k]) + c₃·x[b, k-1],  channel positions wrapped at 64.
  The kernel does this on [64, 32, 128] blocks of the channels × rows × columns (the filter runs along the whole channel
  axis inside a block), the reference on the whole array; both write the shifts as two slices joined, use the same eight
  filter words and add the four products to zero in the same order.  So the two results are the SAME expression at every
  index — no law of the arithmetic is needed, and finiteness of the input is never used.

    Proof/Spec.lean                the filter bank as a function of x, index by index (`bankAt`);
    Proof/LibRollRead.lean         two slices joined along an axis, read at an index;
    Proof/RefRun.lean              the reference's @main as a line of operations, its run, its result term `out`;
    Proof/RefValue.lean            `out x = bankAt x`;
    Proof/KernelIdealPayload.lean  the kernel body's two stored values at an index;
    Proof/KernelIdealValue.lean    from the stored block to the whole array: the kernel's run ends at `bankAt x`.

  The three frames are the generated frame runs (the reference's its run with the result dropped); `preserves` has no
  entry to state.
-/
import proofs.«148950_j38740605010207_1_alg».proof.Defs
import proofs.«148950_j38740605010207_1_alg».proof.Proof.Gen.Kernel
import proofs.«148950_j38740605010207_1_alg».proof.Proof.Gen.Kernel.Skeleton
import proofs.«148950_j38740605010207_1_alg».proof.Proof.Gen.Kernel.Launch
import proofs.«148950_j38740605010207_1_alg».proof.Proof.Gen.Kernel.Points
import proofs.«148950_j38740605010207_1_alg».proof.Proof.Gen.Kernel.Frame
import proofs.«148950_j38740605010207_1_alg».proof.Proof.Gen.KernelIdeal
import proofs.«148950_j38740605010207_1_alg».proof.Proof.Gen.KernelIdeal.Skeleton
import proofs.«148950_j38740605010207_1_alg».proof.Proof.Gen.KernelIdeal.Launch
import proofs.«148950_j38740605010207_1_alg».proof.Proof.Gen.KernelIdeal.Points
import proofs.«148950_j38740605010207_1_alg».proof.Proof.Gen.KernelIdeal.Frame
import proofs.«148950_j38740605010207_1_alg».proof.Proof.Gen.KernelIdeal.Value
import proofs.«148950_j38740605010207_1_alg».proof.Proof.Gen.ReferenceIdeal
import proofs.«148950_j38740605010207_1_alg».proof.Proof.Gen.Pre_finite_inputs
import proofs.«148950_j38740605010207_1_alg».proof.Proof.RefRun
import proofs.«148950_j38740605010207_1_alg».proof.Proof.RefValue
import proofs.«148950_j38740605010207_1_alg».proof.Proof.KernelIdealValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The kernel's result array ends at the filter bank of its argument, the reference's at `out` of its argument, which
    is the filter bank too; the arguments agree. -/
theorem algebraic : Cert.algebraic_KernelIdeal_ReferenceIdeal := by
  intro m ρ m' ρ' _ hagree
  refine ⟨_, Cert.KernelIdeal.BankValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.ReferenceIdeal.RefValue.out_eq_bankAt _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
